-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4x512x512 : Shape := ⟨3, ![4, 512, 512]⟩
abbrev S4x512 : Shape := ⟨2, ![4, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S16384x512 .f32) (main_arg1 : FVec F S4x512x512 .f32) (main_arg2 : FVec F S4x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  main_v13
-- ==== Kernel.lean ====
abbrev S16384x512 : Shape := ⟨2, ![16384, 512]⟩
abbrev S4x512x512 : Shape := ⟨3, ![4, 512, 512]⟩
abbrev S4x512 : Shape := ⟨2, ![4, 512]⟩
abbrev S16384x2048 : Shape := ⟨2, ![16384, 2048]⟩
abbrev S1024x512 : Shape := ⟨2, ![1024, 512]⟩
abbrev S1024x2048 : Shape := ⟨2, ![1024, 2048]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4x512x512, .f32⟩
  | .hbm, ⟨2, _⟩ => ⟨S4x512, .f32⟩
  | .hbm, ⟨3, _⟩ => ⟨S4x512x512, .bf16⟩
  | .hbm, ⟨4, _⟩ => ⟨S16384x2048, .f32⟩
  | .local _ .vmem, ⟨0, _⟩ => ⟨S1024x512, .f32⟩
  | .local _ .vmem, ⟨1, _⟩ => ⟨S1024x512, .f32⟩
  | .local _ .vmem, ⟨2, _⟩ => ⟨S4x512x512, .bf16⟩
  | .local _ .vmem, ⟨3, _⟩ => ⟨S4x512, .f32⟩
  | .local _ .vmem, ⟨4, _⟩ => ⟨S1024x2048, .f32⟩
  | .local _ .vmem, ⟨5, _⟩ => ⟨S1024x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  inb_S4x512x512_S1x512x512_1_0_0 : ∀ a, (![1, 0, 0] : Fin 3 → Nat) a + S1x512x512.size a ≤ S4x512x512.size a
  inb_S4x512_S1x512_1_0 : ∀ a, (![1, 0] : Fin 2 → Nat) a + S1x512.size a ≤ S4x512.size a
  inb_S4x512x512_S1x512x512_2_0_0 : ∀ a, (![2, 0, 0] : Fin 3 → Nat) a + S1x512x512.size a ≤ S4x512x512.size a
  inb_S4x512_S1x512_2_0 : ∀ a, (![2, 0] : Fin 2 → Nat) a + S1x512.size a ≤ S4x512.size a
  inb_S4x512x512_S1x512x512_3_0_0 : ∀ a, (![3, 0, 0] : Fin 3 → Nat) a + S1x512x512.size a ≤ S4x512x512.size a
  inb_S4x512_S1x512_3_0 : ∀ a, (![3, 0] : Fin 2 → Nat) a + S1x512.size a ≤ S4x512.size a
  concatenates_S1024x512_S1024x512_S1024x512_S1024x512_S1024x2048_d1 : Shape.Concatenates [S1024x512, S1024x512, S1024x512, S1024x512] S1024x2048 1
  inb_S1024x2048_S1024x2048_0_0 : ∀ a, (![0, 0] : Fin 2 → Nat) a + S1024x2048.size a ≤ S1024x2048.size a
  h_S1024x2048 : 0 < S1024x2048.numel
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x512x512.size a
  hwx0_1 : ∀ i : grid0.Coords, EltTy.bits .bf16 = 32 ∨ (Rect.block (s := S4x512x512) S4x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x512.size a
  hwx0_2 : ∀ i : grid0.Coords, EltTy.bits .f32 = 32 ∨ (Rect.block (s := S4x512) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S4x512x512 : Shape := ⟨3, ![4, 512, 512]⟩
abbrev S4x512 : Shape := ⟨2, ![4, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x512x512, .f32⟩
  | .hbm, ⟨2, _⟩ => ⟨S4x512, .f32⟩
  | .hbm, ⟨3, _⟩ => ⟨S1x512x512, .f32⟩
  | .hbm, ⟨4, _⟩ => ⟨S512x512, .f32⟩
  | .hbm, ⟨5, _⟩ => ⟨S16384x512, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x512, .f32⟩
  | .hbm, ⟨16, _⟩ => ⟨S16384x512, .f32⟩
  | .hbm, ⟨17, _⟩ => ⟨S1x512x512, .f32⟩
  | .hbm, ⟨18, _⟩ => ⟨S512x512, .f32⟩
  | .hbm, ⟨19, _⟩ => ⟨S16384x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x512, .f32⟩
  | .hbm, ⟨36, _⟩ => ⟨S16384x512, .f32⟩
  | .hbm, ⟨37, _⟩ => ⟨S1x512x512, .f32⟩
  | .hbm, ⟨38, _⟩ => ⟨S512x512, .f32⟩
  | .hbm, ⟨39, _⟩ => ⟨S16384x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x512, .f32⟩
  | .hbm, ⟨62, _⟩ => ⟨S16384x512, .f32⟩
  | .hbm, ⟨63, _⟩ => ⟨S1x512x512, .f32⟩
  | .hbm, ⟨64, _⟩ => ⟨S512x512, .f32⟩
  | .hbm, ⟨65, _⟩ => ⟨S16384x512, .f32⟩
  | .hbm, ⟨66, _⟩ => ⟨S1x512, .f32⟩
  | .hbm, ⟨67, _⟩ => ⟨S512, .f32⟩
  | .hbm, ⟨68, _⟩ => ⟨S1x512, .f32⟩
  | .hbm, ⟨69, _⟩ => ⟨S16384x512, .f32⟩
  | .hbm, ⟨70, _⟩ => ⟨S16384x512, .f32⟩
  | .hbm, ⟨71, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩

abbrev nD : Nat := 1
abbrev τ : Topo := Topo.v7x

variable {F : FTy → Type} [FloatOps F]

class Facts₀ : Prop where
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  concatenates_S16384x512_S16384x512_S16384x512_S16384x512_S16384x2048_d1 : Shape.Concatenates [S16384x512, S16384x512, S16384x512, S16384x512] S16384x2048 1
  dot_S16384x512_S512x512_S16384x512_1_1_0_0_n_n_wf : DotDims.WF S16384x512 S512x512 S16384x512 [1] [1] [0] [0] [] []

variable [Facts₀]

def dot_S16384x512_S512x512_S16384x512_1_1_0_0_n_n : DotDims S16384x512 S512x512 S16384x512 where
  lhsContracting := [1]
  rhsContracting := [1]
  lhsNonContracting := [0]
  rhsNonContracting := [0]
  lhsBatch := []
  rhsBatch := []
  wf := dot_S16384x512_S512x512_S16384x512_1_1_0_0_n_n_wf

class Facts : Prop extends Facts₀ where

variable [Facts]
-- ==== Proof.RowNet.lean ====
/-
  The network one sample at a time.

  Both programs act on every row of the batch independently, so the whole result is described by what happens to ONE
  row `x : Fin 512 → EReal` under the four weight matrices `W l` (stored output-major: `W l e d` multiplies input
  entry `d` into output entry `e`) and bias rows `b l`:

    y₀ = lin W₀ b₀ x
    y₁ = lin W₁ b₁ (res y₀ x)
    y₂ = lin W₂ b₂ (res (res y₁ x) y₀)
    y₃ = lin W₃ b₃ (res (res (res y₂ x) y₀) y₁)

  where `lin W b v e = Σ_d v d · W e d + b e` is a linear layer and `res v u d = v d + Σ_k v k · u k` adds to every
  entry the dot product of the row with an earlier activation. The result row is y₀, y₁, y₂, y₃ laid end to end:
  column `q` holds entry `q % 512` of activation `q / 512`.

  No law of the extended reals is used anywhere: the two programs compute these very sums and products, in the same
  order of operands, and a finite sum over `Fin 512` does not depend on the order in which it is taken.
-/
import Idealize.ShloMosaic.PureOps.Ideal
import Idealize.ShloMosaic.Lib.ValueIdx
import Idealize.ShloMosaic.Lib.Pipeline.Value

noncomputable section

open scoped BigOperators

namespace Cert.RowNet

open Idealize.ShloMosaic Idealize.ShloMosaic.ValueIdx

/-- One sample's activation. -/
abbrev Row : Type := Fin 512 → EReal

/-- The matrix product of a row with an output-major weight matrix: entry `e` is `Σ_d v d · W e d`. -/
def mat (W : Fin 512 → Fin 512 → EReal) (v : Row) : Row := fun e => ∑ d : Fin 512, v d * W e d

/-- A linear layer: the matrix product plus the bias row. -/
def lin (W : Fin 512 → Fin 512 → EReal) (b : Row) (v : Row) : Row := fun e => mat W v e + b e

/-- The residual step: the dot product of the row with an earlier activation, added to every entry of the row. -/
def res (v u : Row) : Row := fun d => v d + ∑ k : Fin 512, v k * u k

section Acts
variable (W : Fin 4 → Fin 512 → Fin 512 → EReal) (b : Fin 4 → Row) (x : Row)

/-- The first activation: a linear layer of the input. -/
def act0 : Row := lin (W 0) (b 0) x
/-- The second: the first activation, corrected against the input, through the second layer. -/
def act1 : Row := lin (W 1) (b 1) (res (act0 W b x) x)
/-- The third: the second activation corrected against the input and then against the first activation. -/
def act2 : Row := lin (W 2) (b 2) (res (res (act1 W b x) x) (act0 W b x))
/-- The fourth: the third activation corrected against the input, the first and the second activation, in that order. -/
def act3 : Row := lin (W 3) (b 3) (res (res (res (act2 W b x) x) (act0 W b x)) (act1 W b x))

/-- The four activations by number. -/
def acts : Fin 4 → Row := ![act0 W b x, act1 W b x, act2 W b x, act3 W b x]

/-- The result row: the four activations end to end. -/
def outRow (q : Fin 2048) : EReal :=
  acts W b x ⟨q.val / 512, by have := q.isLt; omega⟩ ⟨q.val % 512, Nat.mod_lt _ (by decide)⟩

end Acts

/-- The stacked weights as four output-major matrices. -/
def wOf (W : (⟨3, ![4, 512, 512]⟩ : Shape).Idx → EReal) : Fin 4 → Fin 512 → Fin 512 → EReal := fun l e d => W (ix3 l e d)

/-- The stacked biases as four rows. -/
def bOf (b : (⟨2, ![4, 512]⟩ : Shape).Idx → EReal) : Fin 4 → Row := fun l e => b (ix2 l e)

/-- Row `r` of the batch. -/
def batchRow (x : (⟨2, ![16384, 512]⟩ : Shape).Idx → EReal) (r : Fin 16384) : Row := fun d => x (ix2 r d)

/-- **The whole result**: row `r` of the output is the result row of row `r` of the batch. -/
def G (x : (⟨2, ![16384, 512]⟩ : Shape).Idx → EReal) (W : (⟨3, ![4, 512, 512]⟩ : Shape).Idx → EReal)
    (b : (⟨2, ![4, 512]⟩ : Shape).Idx → EReal) : (⟨2, ![16384, 2048]⟩ : Shape).Idx → EReal :=
  fun i => outRow (wOf W) (bOf b) (batchRow x (i 0)) (i 1)

theorem G_apply (x : (⟨2, ![16384, 512]⟩ : Shape).Idx → EReal) (W : (⟨3, ![4, 512, 512]⟩ : Shape).Idx → EReal)
    (b : (⟨2, ![4, 512]⟩ : Shape).Idx → EReal) (r : Fin 16384) (q : Fin 2048) :
    G x W b (ix2 r q) = outRow (wOf W) (bOf b) (batchRow x r) q := rfl

/-! ## Four equal-width pieces joined along the columns, read at an index -/

/-- Four `R × 512` pieces joined side by side into `R × 2048`: column `q` of row `r` is column `q % 512` of row `r` of
    piece `q / 512`. -/
theorem concat4_cols_apply {α : Type} (R : Nat) (f : Fin 4 → (⟨2, ![R, 512]⟩ : Shape).Idx → α)
    (h : Shape.Concatenates (([⟨⟨2, ![R, 512]⟩, f 0⟩, ⟨⟨2, ![R, 512]⟩, f 1⟩, ⟨⟨2, ![R, 512]⟩, f 2⟩, ⟨⟨2, ![R, 512]⟩, f 3⟩] :
      List ((s : Shape) × (s.Idx → α))).map (·.1)) ⟨2, ![R, 2048]⟩ 1)
    (r : Fin R) (q : Fin 2048) :
    concatenate (⟨2, ![R, 2048]⟩ : Shape) 1 [⟨⟨2, ![R, 512]⟩, f 0⟩, ⟨⟨2, ![R, 512]⟩, f 1⟩, ⟨⟨2, ![R, 512]⟩, f 2⟩, ⟨⟨2, ![R, 512]⟩, f 3⟩] h (ix2 r q)
      = f ⟨q.val / 512, by have := q.isLt; omega⟩ (ix2 r ⟨q.val % 512, Nat.mod_lt _ (by decide)⟩) := by
  refine concatenate_ofFn_apply (t := ⟨2, ![R, 2048]⟩) (s₁ := ⟨2, ![R, 512]⟩) (1 : Fin 2) f h rfl 512 rfl (ix2 r q)
    ⟨q.val / 512, by have := q.isLt; omega⟩ rfl (ix2 r ⟨q.val % 512, Nat.mod_lt _ (by decide)⟩) rfl ?_
  intro b hb
  match b with
  | ⟨0, _⟩ => rfl
  | ⟨1, _⟩ => exact absurd rfl hb

end Cert.RowNet

end
-- ==== Proof.KernelRow.lean ====
/-
  The kernel's tile, one row at a time.

  The body works on a tile of 1024 samples. Each of its steps acts on every row of the tile independently:
  * the residual step (a lane sum of the product with an earlier activation, kept as a column and spread back over the
    row, then added) is `RowNet.res` on each row;
  * the matrix product with one layer's weights (contracting the row against the weight's input axis) is `RowNet.mat`;
  * adding one layer's bias row is the bias of `RowNet.lin`.
  The four stored activations are compositions of these, so row `p` of what the body stores is `RowNet.outRow` of row `p`
  of the input tile, with the weights and biases read layer by layer out of the stacked operands.
-/
import proofs.«105273_j60430189854994_1_alg».proof.Proof.Gen.KernelIdeal.Frame
import proofs.«105273_j60430189854994_1_alg».proof.Proof.RowNet
import Idealize.ShloMosaic.Lib.ValueIdx
import Idealize.ShloMosaic.Lib.Pipeline.Value
import Idealize.ShloMosaic.PureOps.Ideal.Laws

noncomputable section

open scoped BigOperators

namespace Cert.KernelIdeal.Rows

open Cert.KernelIdeal Cert.KernelIdeal.Gen Cert.RowNet Idealize.ShloMosaic Idealize.ShloMosaic.ValueIdx

/-- Row `p` of a tile. -/
def rowK (a : FVec Ideal S1024x512 .f32) (p : Fin 1024) : Row := fun d => a (ix2 p d)

/-- One layer's loaded weight slab as an output-major matrix. -/
def wK (w : FVec Ideal S1x512x512 .bf16) : Fin 512 → Fin 512 → EReal := fun e d => w (ix3 (0 : Fin 1) e d)

/-- One layer's loaded bias slab as a row. -/
def bK (bb : FVec Ideal S1x512 .f32) : Row := fun e => bb (ix2 (0 : Fin 1) e)

/-! ## The three steps on a tile -/

/-- The residual step on a tile: `a + keepdims-sum(a · u)`. -/
abbrev resK (a u : FVec Ideal S1024x512 .f32) : FVec Ideal S1024x512 .f32 :=
  addf a (broadcastTo S1024x512 (shapeCast S1024x1 (multiReduction .add [1] S1024 (mulf a u) 0x00000000#32 reduces_S1024x512_S1024 (.inl rfl) rfl) shapeCasts_S1024_S1024x1) broadcasts_S1024x1_S1024x512)

/-- The matrix product of a tile with one layer's weight slab, into a zero accumulator. -/
abbrev matK (a : FVec Ideal S1024x512 .f32) (w : FVec Ideal S1x512x512 .bf16) : FVec Ideal S1024x512 .f32 :=
  matmul dot_S1024x512_S512x512_S1024x512_1_1_0_0_n_n none (truncf .bf16 a bitsLt_bf16_f32) (shapeCast S512x512 w shapeCasts_S1x512x512_S512x512) (constant S1024x512 .f32 0x00000000#32)

/-- Adding one layer's bias slab to every row of a tile. -/
abbrev biasK (y : FVec Ideal S1024x512 .f32) (bb : FVec Ideal S1x512 .f32) : FVec Ideal S1024x512 .f32 :=
  addf y (broadcastTo S1024x512 (shapeCast S1x512 (shapeCast S512 bb shapeCasts_S1x512_S512) shapeCasts_S512_S1x512) broadcasts_S1x512_S1024x512)

/-- A whole linear layer on a tile. -/
abbrev linK (a : FVec Ideal S1024x512 .f32) (w : FVec Ideal S1x512x512 .bf16) (bb : FVec Ideal S1x512 .f32) : FVec Ideal S1024x512 .f32 :=
  biasK (matK a w) bb

/-! ## Each step on a row -/

/-- The residual step acts row by row: the lane sum at row `p` is the sum over that row's 512 products. -/
theorem rowK_resK (a u : FVec Ideal S1024x512 .f32) (p : Fin 1024) : rowK (resK a u) p = res (rowK a p) (rowK u p) := by
  funext d
  show a (ix2 p d) + broadcastTo S1024x512 (shapeCast S1024x1 (multiReduction .add [1] S1024 (mulf a u) 0x00000000#32 reduces_S1024x512_S1024 (.inl rfl) rfl) shapeCasts_S1024_S1024x1) broadcasts_S1024x1_S1024x512 (ix2 p d)
    = a (ix2 p d) + ∑ k : Fin 512, a (ix2 p k) * u (ix2 p k)
  congr 1
  refine (broadcastTo_apply _ broadcasts_S1024x1_S1024x512 (ix2 p d) (ix2 p (0 : Fin 1)) (fun x => match x with
    | ⟨0, _⟩ => by show p.val = if (1024 : Nat) = 1 then 0 else p.val; rw [if_neg (by decide)]
    | ⟨1, _⟩ => by show 0 = if (1 : Nat) = 1 then 0 else d.val; rw [if_pos rfl])).trans ?_
  refine (shapeCast_apply _ shapeCasts_S1024_S1024x1 (ix2 p (0 : Fin 1)) (ix1 p) (by
    rw [Shape.rowMajor_val_one, Shape.rowMajor_val_two]; show p.val = p.val * 1 + 0; omega)).trans ?_
  refine (Ideal.multiReduction_add_single (mulf a u) 0x00000000#32 reduces_S1024x512_S1024 (.inl rfl) rfl (ix1 p)).trans ?_
  refine Finset.sum_congr rfl fun k _ => ?_
  exact congrArg (fun i => a i * u i) (funext fun x => Fin.ext (by match x with | ⟨0, _⟩ => rfl | ⟨1, _⟩ => rfl))

/-- The product's left operand index: its row is the output's row … -/
theorem lhs_axis0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
/-- … and its column the contracted coordinate. -/
theorem lhs_axis1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
/-- The right operand index: its row is the output's column (the weight is output-major) … -/
theorem rhs_axis0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
/-- … and its column the contracted coordinate. -/
theorem rhs_axis1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The matrix product acts row by row: entry `e` of row `p` is the sum over `d` of the row's entry `d` times the
    weight's entry `(e, d)`; the change of format in front of it is the identity on extended reals. -/
theorem rowK_matK (a : FVec Ideal S1024x512 .f32) (w : FVec Ideal S1x512x512 .bf16) (p : Fin 1024) :
    rowK (matK a w) p = mat (wK w) (rowK a p) := by
  funext e
  show matmul dot_S1024x512_S512x512_S1024x512_1_1_0_0_n_n none (truncf .bf16 a bitsLt_bf16_f32) (shapeCast S512x512 w shapeCasts_S1x512x512_S512x512) (constant S1024x512 .f32 0x00000000#32) (ix2 p e)
    = ∑ d : Fin 512, a (ix2 p d) * w (ix3 (0 : Fin 1) e d)
  simp only [matmul]
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 p e) ((contrEquiv1 dot_S1024x512_S512x512_S1024x512_1_1_0_0_n_n 512 rfl rfl).symm k) = ix2 p k := funext fun x => Fin.ext (by
    match x with
    | ⟨0, _⟩ => exact lhs_axis0 _ _
    | ⟨1, _⟩ => exact (lhs_axis1 _ _).trans hk)
  have er : dot_S1024x512_S512x512_S1024x512_1_1_0_0_n_n.rhsIdx (ix2 p e) ((contrEquiv1 dot_S1024x512_S512x512_S1024x512_1_1_0_0_n_n 512 rfl rfl).symm k) = ix2 e k := funext fun x => Fin.ext (by
    match x with
    | ⟨0, _⟩ => exact rhs_axis0 _ _
    | ⟨1, _⟩ => exact (rhs_axis1 _ _).trans hk)
  rw [el, er]
  show a (ix2 p k) * shapeCast S512x512 w shapeCasts_S1x512x512_S512x512 (ix2 e k) = a (ix2 p k) * w (ix3 (0 : Fin 1) e k)
  congr 1
  exact shapeCast_apply w shapeCasts_S1x512x512_S512x512 (ix2 e k) (ix3 (0 : Fin 1) e k) (by
    rw [Shape.rowMajor_val_three, Shape.rowMajor_val_two]; show (0 * 512 + e.val) * 512 + k.val = e.val * 512 + k.val; omega)

/-- The bias is the same row added to every row of the tile. -/
theorem rowK_biasK (y : FVec Ideal S1024x512 .f32) (bb : FVec Ideal S1x512 .f32) (p : Fin 1024) :
    rowK (biasK y bb) p = fun e => rowK y p e + bK bb e := by
  funext e
  show y (ix2 p e) + broadcastTo S1024x512 (shapeCast S1x512 (shapeCast S512 bb shapeCasts_S1x512_S512) shapeCasts_S512_S1x512) broadcasts_S1x512_S1024x512 (ix2 p e)
    = y (ix2 p e) + bb (ix2 (0 : Fin 1) e)
  congr 1
  rw [shapeCast_shapeCast]
  exact broadcastTo_apply bb broadcasts_S1x512_S1024x512 (ix2 p e) (ix2 (0 : Fin 1) e) (fun x => match x with
    | ⟨0, _⟩ => by show 0 = if (1 : Nat) = 1 then 0 else p.val; rw [if_pos rfl]
    | ⟨1, _⟩ => by show e.val = if (512 : Nat) = 1 then 0 else e.val; rw [if_neg (by decide)])

/-- So a linear layer on a tile is the linear layer on each row. -/
theorem rowK_linK (a : FVec Ideal S1024x512 .f32) (w : FVec Ideal S1x512x512 .bf16) (bb : FVec Ideal S1x512 .f32) (p : Fin 1024) :
    rowK (linK a w bb) p = lin (wK w) (bK bb) (rowK a p) := by
  rw [rowK_biasK, rowK_matK]
  rfl

/-! ## The body's four payloads are compositions of the three steps -/

/-- The first activation of the tile: a linear layer of the loaded input tile. -/
theorem pay2_eq (v0 : FVec Ideal S1024x512 .f32) (v2 : FVec Ideal S1x512x512 .bf16) (v5 : FVec Ideal S1x512 .f32) :
    k0_pay2 (F := Ideal) v0 v2 v5 = linK v0 v2 v5 := rfl

/-- The second: the first, corrected against the input, through the second layer. -/
theorem pay3_eq (v0 : FVec Ideal S1024x512 .f32) (v2 : FVec Ideal S1x512x512 .bf16) (v5 : FVec Ideal S1x512 .f32)
    (v16 : FVec Ideal S1x512x512 .bf16) (v19 : FVec Ideal S1x512 .f32) :
    k0_pay3 (F := Ideal) v0 v2 v5 v16 v19 = linK (resK (k0_pay2 (F := Ideal) v0 v2 v5) v0) v16 v19 := rfl

/-- The third layer's matrix product (its bias is added later): of the second activation corrected against the input and
    then against the first activation. -/
theorem pay4_eq (v0 : FVec Ideal S1024x512 .f32) (v2 : FVec Ideal S1x512x512 .bf16) (v5 : FVec Ideal S1x512 .f32)
    (v16 : FVec Ideal S1x512x512 .bf16) (v19 : FVec Ideal S1x512 .f32) (v35 : FVec Ideal S1x512x512 .bf16) :
    k0_pay4 (F := Ideal) v0 v2 v5 v16 v19 v35
      = matK (resK (resK (k0_pay3 (F := Ideal) v0 v2 v5 v16 v19) v0) (k0_pay2 (F := Ideal) v0 v2 v5)) v35 := rfl

/-- The four activations of the tile, by number, from the values the last payload is given: the first two as computed
    before, the third by adding its bias, the fourth from the third corrected three times. -/
def pieces (v0 v9 v23 v37 : FVec Ideal S1024x512 .f32) (v38 : FVec Ideal S1x512 .f32) (v59 : FVec Ideal S1x512x512 .bf16)
    (v62 : FVec Ideal S1x512 .f32) : Fin 4 → FVec Ideal S1024x512 .f32 :=
  ![v9, v23, biasK v37 v38, linK (resK (resK (resK (biasK v37 v38) v0) v9) v23) v59 v62]

/-- What is stored: the four activations side by side. -/
theorem pay1_eq (v0 v9 v23 v37 : FVec Ideal S1024x512 .f32) (v38 : FVec Ideal S1x512 .f32) (v59 : FVec Ideal S1x512x512 .bf16)
    (v62 : FVec Ideal S1x512 .f32) :
    k0_pay1 (F := Ideal) v0 v9 v23 v37 v38 v59 v62
      = concatenate S1024x2048 1 [⟨S1024x512, pieces v0 v9 v23 v37 v38 v59 v62 0⟩, ⟨S1024x512, pieces v0 v9 v23 v37 v38 v59 v62 1⟩,
          ⟨S1024x512, pieces v0 v9 v23 v37 v38 v59 v62 2⟩, ⟨S1024x512, pieces v0 v9 v23 v37 v38 v59 v62 3⟩]
          concatenates_S1024x512_S1024x512_S1024x512_S1024x512_S1024x2048_d1 := rfl

/-! ## The loads: layer `o`'s slab of the stacked weights and biases -/

/-- The weight slab loaded at offset `o` along the layer axis is layer `o`'s matrix. -/
theorem wK_ld (X1 : Vec Ideal S4x512x512 .bf16) (o : Nat) (ho : o < 4)
    (inb : ∀ a, (![o, 0, 0] : Fin 3 → Nat) a + S1x512x512.size a ≤ S4x512x512.size a) :
    wK (View.ld X1 (Rect.unit (s := S4x512x512) ![o, 0, 0] S1x512x512.size inb)) = wOf X1 ⟨o, ho⟩ := by
  funext e d
  show X1 ((Rect.unit (s := S4x512x512) ![o, 0, 0] S1x512x512.size inb).idx (ix3 (0 : Fin 1) e d)) = X1 (ix3 (⟨o, ho⟩ : Fin 4) e d)
  refine congrArg X1 (funext fun a => Fin.ext ?_)
  match a with
  | ⟨0, _⟩ => show o + 1 * 0 = o; omega
  | ⟨1, _⟩ => show 0 + 1 * e.val = e.val; omega
  | ⟨2, _⟩ => show 0 + 1 * d.val = d.val; omega

/-- The bias slab loaded at offset `o` is layer `o`'s bias row. -/
theorem bK_ld (X2 : Vec Ideal S4x512 .f32) (o : Nat) (ho : o < 4)
    (inb : ∀ a, (![o, 0] : Fin 2 → Nat) a + S1x512.size a ≤ S4x512.size a) :
    bK (View.ld X2 (Rect.unit (s := S4x512) ![o, 0] S1x512.size inb)) = bOf X2 ⟨o, ho⟩ := by
  funext e
  show X2 ((Rect.unit (s := S4x512) ![o, 0] S1x512.size inb).idx (ix2 (0 : Fin 1) e)) = X2 (ix2 (⟨o, ho⟩ : Fin 4) e)
  refine congrArg X2 (funext fun a => Fin.ext ?_)
  match a with
  | ⟨0, _⟩ => show o + 1 * 0 = o; omega
  | ⟨1, _⟩ => show 0 + 1 * e.val = e.val; omega

/-! ## What the body stores, on a row -/

theorem hz : (![0, 0] : Fin 2 → Nat) = fun _ => 0 := funext fun a => by fin_cases a <;> rfl

section Stored
variable (X0 : Vec Ideal S1024x512 .f32) (X1 : Vec Ideal S4x512x512 .bf16) (X2 : Vec Ideal S4x512 .f32)

/-- The tile's first activation, from the staged blocks. -/
abbrev A0 : FVec Ideal S1024x512 .f32 := k0_pay2 (F := Ideal) X0 (View.ld X1 r0_1) (View.ld X2 r0_2)
/-- The tile's second activation. -/
abbrev A1 : FVec Ideal S1024x512 .f32 := k0_pay3 (F := Ideal) X0 (View.ld X1 r0_1) (View.ld X2 r0_2) (View.ld X1 r0_3) (View.ld X2 r0_4)
/-- The third layer's matrix product. -/
abbrev M2 : FVec Ideal S1024x512 .f32 := k0_pay4 (F := Ideal) X0 (View.ld X1 r0_1) (View.ld X2 r0_2) (View.ld X1 r0_3) (View.ld X2 r0_4) (View.ld X1 r0_5)

/-- Row `p` of the tile's first activation is the first activation of row `p`. -/
theorem rowK_A0 (p : Fin 1024) : rowK (A0 X0 X1 X2) p = act0 (wOf X1) (bOf X2) (rowK X0 p) := by
  show rowK (k0_pay2 (F := Ideal) X0 (View.ld X1 r0_1) (View.ld X2 r0_2)) p = _
  rw [pay2_eq, rowK_linK, wK_ld X1 0 (by decide), bK_ld X2 0 (by decide)]
  rfl

/-- Row `p` of the second is the second activation of row `p`. -/
theorem rowK_A1 (p : Fin 1024) : rowK (A1 X0 X1 X2) p = act1 (wOf X1) (bOf X2) (rowK X0 p) := by
  show rowK (k0_pay3 (F := Ideal) X0 (View.ld X1 r0_1) (View.ld X2 r0_2) (View.ld X1 r0_3) (View.ld X2 r0_4)) p = _
  rw [pay3_eq, rowK_linK, rowK_resK, wK_ld X1 1 (by decide), bK_ld X2 1 (by decide)]
  show lin _ _ (res (rowK (A0 X0 X1 X2) p) (rowK X0 p)) = _
  rw [rowK_A0]
  rfl

/-- Row `p` of the third layer's matrix product. -/
theorem rowK_M2 (p : Fin 1024) : rowK (M2 X0 X1 X2) p
    = mat (wOf X1 2) (res (res (act1 (wOf X1) (bOf X2) (rowK X0 p)) (rowK X0 p)) (act0 (wOf X1) (bOf X2) (rowK X0 p))) := by
  show rowK (k0_pay4 (F := Ideal) X0 (View.ld X1 r0_1) (View.ld X2 r0_2) (View.ld X1 r0_3) (View.ld X2 r0_4) (View.ld X1 r0_5)) p = _
  rw [pay4_eq, rowK_matK, rowK_resK, rowK_resK, wK_ld X1 2 (by decide)]
  show mat _ (res (res (rowK (A1 X0 X1 X2) p) (rowK X0 p)) (rowK (A0 X0 X1 X2) p)) = _
  rw [rowK_A1, rowK_A0]
  rfl

/-- Row `p` of each of the four stored activations is that activation of row `p`. -/
theorem rowK_pieces (p : Fin 1024) (n : Fin 4) :
    rowK (pieces X0 (A0 X0 X1 X2) (A1 X0 X1 X2) (M2 X0 X1 X2) (View.ld X2 r0_6) (View.ld X1 r0_7) (View.ld X2 r0_8) n) p
      = acts (wOf X1) (bOf X2) (rowK X0 p) n := by
  have h2 : rowK (biasK (M2 X0 X1 X2) (View.ld X2 r0_6)) p = act2 (wOf X1) (bOf X2) (rowK X0 p) := by
    rw [rowK_biasK, rowK_M2, bK_ld X2 2 (by decide)]
    rfl
  match n with
  | ⟨0, _⟩ => exact rowK_A0 X0 X1 X2 p
  | ⟨1, _⟩ => exact rowK_A1 X0 X1 X2 p
  | ⟨2, _⟩ => exact h2
  | ⟨3, _⟩ =>
    show rowK (linK (resK (resK (resK (biasK (M2 X0 X1 X2) (View.ld X2 r0_6)) X0) (A0 X0 X1 X2)) (A1 X0 X1 X2)) (View.ld X1 r0_7) (View.ld X2 r0_8)) p = _
    rw [rowK_linK, rowK_resK, rowK_resK, rowK_resK, h2, rowK_A0, rowK_A1, wK_ld X1 3 (by decide), bK_ld X2 3 (by decide)]
    rfl

/-- **What the body leaves in the output tile, read at row `p` and column `q`**: the result row of input row `p`, at `q`. -/
theorem out_row (p : Fin 1024) (q : Fin 2048) :
    out0_3 X0 X1 X2 (ix2 p q) = outRow (wOf X1) (bOf X2) (rowK X0 p) q := by
  unfold out0_3
  rw [View.canon_unit_zero hz]
  simp only [View.ld_unit_zero (S := S1024x512) hz]
  rw [pay1_eq]
  refine (concat4_cols_apply 1024 (pieces X0 (A0 X0 X1 X2) (A1 X0 X1 X2) (M2 X0 X1 X2) (View.ld X2 r0_6) (View.ld X1 r0_7) (View.ld X2 r0_8)) _ p q).trans ?_
  exact congrFun (rowK_pieces X0 X1 X2 p ⟨q.val / 512, by have := q.isLt; omega⟩) ⟨q.val % 512, Nat.mod_lt _ (by decide)⟩

end Stored

end Cert.KernelIdeal.Rows

end
-- ==== Proof.RefRow.lean ====
/-
  The reference, one row at a time.

  The reference applies the same three steps to the whole batch of 16384 rows: a residual step (`reduce add` along the
  row, spread back over it, added), a `dot_general` contracting the row against one layer's weight slice, and the layer's
  bias slice spread over the batch. Each acts on every row independently, as `RowNet.res`, `RowNet.mat` and the bias of
  `RowNet.lin`; so its result is `RowNet.G` of its arguments.
-/
import proofs.«105273_j60430189854994_1_alg».proof.Proof.Gen.ReferenceIdeal.Read
import proofs.«105273_j60430189854994_1_alg».proof.Proof.RowNet
import Idealize.ShloMosaic.Lib.ValueIdx
import Idealize.ShloMosaic.Lib.Pipeline.Value
import Idealize.ShloMosaic.PureOps.Ideal.Laws

noncomputable section

open scoped BigOperators

namespace Cert.ReferenceIdeal.Rows

open Cert.ReferenceIdeal Cert.ReferenceIdeal.Gen Cert.ReferenceIdeal.Read Cert.RowNet Idealize.ShloMosaic Idealize.ShloMosaic.ValueIdx

/-! ## The two steps on the batch -/

/-- The residual step on the batch: `a + keepdims-sum(a · u)`. -/
abbrev resR (a u : FVec Ideal S16384x512 .f32) : FVec Ideal S16384x512 .f32 :=
  addf a (broadcastInDim S16384x512 ![0, 1] bcast_S16384x1_S16384x512_0_1 (broadcastInDim S16384x1 ![0] bcast_S16384_S16384x1_0
    (Host.reduceAdd (F := Ideal) (mulf a u) (constant (F := Ideal) S_ .f32 0x00000000#32) reducesTo_S16384x512_S16384_d1 h_S_)))

/-- Layer `o` on the batch: the product with the layer's weight slice plus the layer's bias slice. -/
abbrev linR (a : FVec Ideal S16384x512 .f32) (W : FVec Ideal S4x512x512 .f32) (B : FVec Ideal S4x512 .f32) (o : Nat)
    (hs : S4x512x512.Slices ![o, 0, 0] S1x512x512) (hs' : S4x512.Slices ![o, 0] S1x512) : FVec Ideal S16384x512 .f32 :=
  addf (Host.dotGeneral (F := Ideal) dot_S16384x512_S512x512_S16384x512_1_1_0_0_n_n none a
      (shapeCast S512x512 (extractStridedSlice S1x512x512 ![o, 0, 0] W hs) shapeCasts_S1x512x512_S512x512))
    (broadcastInDim S16384x512 ![0, 1] bcast_S1x512_S16384x512_0_1 (broadcastInDim S1x512 ![1] bcast_S512_S1x512_1
      (shapeCast S512 (extractStridedSlice S1x512 ![o, 0] B hs') shapeCasts_S1x512_S512)))

/-! ## Each step on a row -/

/-- The residual step acts row by row: the host's sum at row `r` starts from zero and adds that row's 512 products. -/
theorem row_resR (a u : FVec Ideal S16384x512 .f32) (r : Fin 16384) : batchRow (resR a u) r = res (batchRow a r) (batchRow u r) := by
  funext d
  show a (ix2 r d) + broadcastInDim S16384x512 ![0, 1] bcast_S16384x1_S16384x512_0_1 (broadcastInDim S16384x1 ![0] bcast_S16384_S16384x1_0
      (Host.reduceAdd (F := Ideal) (mulf a u) (constant (F := Ideal) S_ .f32 0x00000000#32) reducesTo_S16384x512_S16384_d1 h_S_)) (ix2 r d)
    = a (ix2 r d) + ∑ k : Fin 512, a (ix2 r k) * u (ix2 r k)
  refine congrArg (a (ix2 r d) + ·) ?_
  refine (broadcastInDim_apply _ bcast_S16384x1_S16384x512_0_1 _ (ix2 r d) (ix2 r (0 : Fin 1)) (fun x => match x with
    | ⟨0, _⟩ => by show r.val = if (16384 : Nat) = 1 then 0 else r.val; rw [if_neg (by decide)]
    | ⟨1, _⟩ => by show 0 = if (1 : Nat) = 1 then 0 else d.val; rw [if_pos rfl])).trans ?_
  refine (broadcastInDim_apply _ bcast_S16384_S16384x1_0 _ (ix2 r (0 : Fin 1)) (ix1 r) (fun x => match x with
    | ⟨0, _⟩ => by show r.val = if (16384 : Nat) = 1 then 0 else r.val; rw [if_neg (by decide)])).trans ?_
  simp only [Host.reduceAdd, Ideal.hostReduceAdd_def]
  rw [Ideal.hostReduceAdd_single reducesTo_S16384x512_S16384_d1 (by decide)]
  show Ideal.ofBits .f32 0x00000000#32 + _ = _
  rw [Ideal.ofBits_zero_f32, zero_add]
  refine Finset.sum_congr rfl fun k _ => ?_
  exact congrArg (fun i => a i * u i) (funext fun x => Fin.ext (by match x with | ⟨0, _⟩ => rfl | ⟨1, _⟩ => rfl))

/-- A layer acts row by row: the product contracts the row against row `e` of the layer's output-major weight matrix,
    and the bias is the same row added everywhere. -/
theorem row_linR (a : FVec Ideal S16384x512 .f32) (W : FVec Ideal S4x512x512 .f32) (B : FVec Ideal S4x512 .f32) (o : Nat) (ho : o < 4)
    (hs : S4x512x512.Slices ![o, 0, 0] S1x512x512) (hs' : S4x512.Slices ![o, 0] S1x512) (r : Fin 16384) :
    batchRow (linR a W B o hs hs') r = lin (wOf W ⟨o, ho⟩) (bOf B ⟨o, ho⟩) (batchRow a r) := by
  funext e
  show Host.dotGeneral (F := Ideal) dot_S16384x512_S512x512_S16384x512_1_1_0_0_n_n none a
        (shapeCast S512x512 (extractStridedSlice S1x512x512 ![o, 0, 0] W hs) shapeCasts_S1x512x512_S512x512) (ix2 r e)
      + broadcastInDim S16384x512 ![0, 1] bcast_S1x512_S16384x512_0_1 (broadcastInDim S1x512 ![1] bcast_S512_S1x512_1
        (shapeCast S512 (extractStridedSlice S1x512 ![o, 0] B hs') shapeCasts_S1x512_S512)) (ix2 r e)
    = (∑ d : Fin 512, a (ix2 r d) * W (ix3 (⟨o, ho⟩ : Fin 4) e d)) + B (ix2 (⟨o, ho⟩ : Fin 4) e)
  refine congrArg₂ (· + ·) ?_ ?_
  · simp only [Host.dotGeneral]
    rw [Ideal.dotGeneral_apply, ← Equiv.sum_comp (contrEquiv1 dot_S16384x512_S512x512_S16384x512_1_1_0_0_n_n 512 rfl rfl).symm]
    refine Finset.sum_congr rfl fun k _ => ?_
    have hk := contrEquiv1_symm_val dot_S16384x512_S512x512_S16384x512_1_1_0_0_n_n 512 rfl rfl k
    have el : dot_S16384x512_S512x512_S16384x512_1_1_0_0_n_n.lhsIdx (ix2 r e) ((contrEquiv1 dot_S16384x512_S512x512_S16384x512_1_1_0_0_n_n 512 rfl rfl).symm k) = ix2 r k := funext fun x => Fin.ext (by
      match x with
      | ⟨0, _⟩ => exact lhs_main_v2_0 _ _
      | ⟨1, _⟩ => exact (lhs_main_v2_1 _ _).trans hk)
    have er : dot_S16384x512_S512x512_S16384x512_1_1_0_0_n_n.rhsIdx (ix2 r e) ((contrEquiv1 dot_S16384x512_S512x512_S16384x512_1_1_0_0_n_n 512 rfl rfl).symm k) = ix2 e k := funext fun x => Fin.ext (by
      match x with
      | ⟨0, _⟩ => exact rhs_main_v2_0 _ _
      | ⟨1, _⟩ => exact (rhs_main_v2_1 _ _).trans hk)
    rw [el, er]
    show a (ix2 r k) * shapeCast S512x512 (extractStridedSlice S1x512x512 ![o, 0, 0] W hs) shapeCasts_S1x512x512_S512x512 (ix2 e k)
      = a (ix2 r k) * W (ix3 (⟨o, ho⟩ : Fin 4) e k)
    refine congrArg (a (ix2 r k) * ·) ?_
    refine (shapeCast_apply _ shapeCasts_S1x512x512_S512x512 (ix2 e k) (ix3 (0 : Fin 1) e k) (by
      rw [Shape.rowMajor_val_three, Shape.rowMajor_val_two]; show (0 * 512 + e.val) * 512 + k.val = e.val * 512 + k.val; omega)).trans ?_
    exact extractStridedSlice_apply ![o, 0, 0] W hs (ix3 (0 : Fin 1) e k) (ix3 (⟨o, ho⟩ : Fin 4) e k) (fun x => match x with
      | ⟨0, _⟩ => by show o = o + 0; omega
      | ⟨1, _⟩ => by show e.val = 0 + e.val; omega
      | ⟨2, _⟩ => by show k.val = 0 + k.val; omega)
  · refine (broadcastInDim_apply _ bcast_S1x512_S16384x512_0_1 _ (ix2 r e) (ix2 (0 : Fin 1) e) (fun x => match x with
      | ⟨0, _⟩ => by show 0 = if (1 : Nat) = 1 then 0 else r.val; rw [if_pos rfl]
      | ⟨1, _⟩ => by show e.val = if (512 : Nat) = 1 then 0 else e.val; rw [if_neg (by decide)])).trans ?_
    refine (broadcastInDim_apply _ bcast_S512_S1x512_1 _ (ix2 (0 : Fin 1) e) (ix1 e) (fun x => match x with
      | ⟨0, _⟩ => by show e.val = if (512 : Nat) = 1 then 0 else e.val; rw [if_neg (by decide)])).trans ?_
    refine (shapeCast_apply _ shapeCasts_S1x512_S512 (ix1 e) (ix2 (0 : Fin 1) e) (by
      rw [Shape.rowMajor_val_two, Shape.rowMajor_val_one]; show 0 * 512 + e.val = e.val; omega)).trans ?_
    exact extractStridedSlice_apply ![o, 0] B hs' (ix2 (0 : Fin 1) e) (ix2 (⟨o, ho⟩ : Fin 4) e) (fun x => match x with
      | ⟨0, _⟩ => by show o = o + 0; omega
      | ⟨1, _⟩ => by show e.val = 0 + e.val; omega)

/-! ## The reference's stages are compositions of the two steps -/

section Stages
variable (x0 : FVec Ideal S16384x512 .f32) (x1 : FVec Ideal S4x512x512 .f32) (x2 : FVec Ideal S4x512 .f32)

/-- The first activation: layer 0 of the batch. -/
theorem v7_eq : val_main_v7 (F := Ideal) x0 x1 x2 = linR x0 x1 x2 0 slices_S4x512x512_S1x512x512_0_0_0 slices_S4x512_S1x512_0_0 := rfl
/-- … corrected against the input … -/
theorem v12_eq : val_main_v12 (F := Ideal) x0 x1 x2 = resR (val_main_v7 (F := Ideal) x0 x1 x2) x0 := rfl
/-- … through layer 1: the second activation. -/
theorem v20_eq : val_main_v20 (F := Ideal) x0 x1 x2 = linR (val_main_v12 (F := Ideal) x0 x1 x2) x1 x2 1 slices_S4x512x512_S1x512x512_1_0_0 slices_S4x512_S1x512_1_0 := rfl
/-- The second activation corrected against the input … -/
theorem v25_eq : val_main_v25 (F := Ideal) x0 x1 x2 = resR (val_main_v20 (F := Ideal) x0 x1 x2) x0 := rfl
/-- … and against the first activation … -/
theorem v30_eq : val_main_v30 (F := Ideal) x0 x1 x2 = resR (val_main_v25 (F := Ideal) x0 x1 x2) (val_main_v7 (F := Ideal) x0 x1 x2) := rfl
/-- … through layer 2: the third activation. -/
theorem v38_eq : val_main_v38 (F := Ideal) x0 x1 x2 = linR (val_main_v30 (F := Ideal) x0 x1 x2) x1 x2 2 slices_S4x512x512_S1x512x512_2_0_0 slices_S4x512_S1x512_2_0 := rfl
/-- The third activation corrected against the input … -/
theorem v43_eq : val_main_v43 (F := Ideal) x0 x1 x2 = resR (val_main_v38 (F := Ideal) x0 x1 x2) x0 := rfl
/-- … the first activation … -/
theorem v48_eq : val_main_v48 (F := Ideal) x0 x1 x2 = resR (val_main_v43 (F := Ideal) x0 x1 x2) (val_main_v7 (F := Ideal) x0 x1 x2) := rfl
/-- … and the second … -/
theorem v53_eq : val_main_v53 (F := Ideal) x0 x1 x2 = resR (val_main_v48 (F := Ideal) x0 x1 x2) (val_main_v20 (F := Ideal) x0 x1 x2) := rfl
/-- … through layer 3: the fourth activation. -/
theorem v61_eq : val_main_v61 (F := Ideal) x0 x1 x2 = linR (val_main_v53 (F := Ideal) x0 x1 x2) x1 x2 3 slices_S4x512x512_S1x512x512_3_0_0 slices_S4x512_S1x512_3_0 := rfl

/-- Row `r` of the batch's first activation is the first activation of row `r`. -/
theorem row_v7 (r : Fin 16384) : batchRow (val_main_v7 (F := Ideal) x0 x1 x2) r = act0 (wOf x1) (bOf x2) (batchRow x0 r) := by
  rw [v7_eq, row_linR _ _ _ 0 (by decide)]
  rfl

/-- Row `r` of the second. -/
theorem row_v20 (r : Fin 16384) : batchRow (val_main_v20 (F := Ideal) x0 x1 x2) r = act1 (wOf x1) (bOf x2) (batchRow x0 r) := by
  rw [v20_eq, row_linR _ _ _ 1 (by decide), v12_eq, row_resR, row_v7]
  rfl

/-- Row `r` of the third. -/
theorem row_v38 (r : Fin 16384) : batchRow (val_main_v38 (F := Ideal) x0 x1 x2) r = act2 (wOf x1) (bOf x2) (batchRow x0 r) := by
  rw [v38_eq, row_linR _ _ _ 2 (by decide), v30_eq, row_resR, v25_eq, row_resR, row_v20, row_v7]
  rfl

/-- Row `r` of the fourth. -/
theorem row_v61 (r : Fin 16384) : batchRow (val_main_v61 (F := Ideal) x0 x1 x2) r = act3 (wOf x1) (bOf x2) (batchRow x0 r) := by
  rw [v61_eq, row_linR _ _ _ 3 (by decide), v53_eq, row_resR, v48_eq, row_resR, v43_eq, row_resR, row_v38, row_v7, row_v20]
  rfl

/-- The four activations of the batch, by number. -/
def stages : Fin 4 → FVec Ideal S16384x512 .f32 :=
  ![val_main_v7 (F := Ideal) x0 x1 x2, val_main_v20 (F := Ideal) x0 x1 x2, val_main_v38 (F := Ideal) x0 x1 x2, val_main_v61 (F := Ideal) x0 x1 x2]

theorem row_stages (r : Fin 16384) (n : Fin 4) : batchRow (stages x0 x1 x2 n) r = acts (wOf x1) (bOf x2) (batchRow x0 r) n := by
  match n with
  | ⟨0, _⟩ => exact row_v7 x0 x1 x2 r
  | ⟨1, _⟩ => exact row_v20 x0 x1 x2 r
  | ⟨2, _⟩ => exact row_v38 x0 x1 x2 r
  | ⟨3, _⟩ => exact row_v61 x0 x1 x2 r

/-- The result: the four activations side by side. -/
theorem v62_eq : val_main_v62 (F := Ideal) x0 x1 x2
    = concatenate S16384x2048 1 [⟨S16384x512, stages x0 x1 x2 0⟩, ⟨S16384x512, stages x0 x1 x2 1⟩, ⟨S16384x512, stages x0 x1 x2 2⟩, ⟨S16384x512, stages x0 x1 x2 3⟩]
        concatenates_S16384x512_S16384x512_S16384x512_S16384x512_S16384x2048_d1 := rfl

/-- The reference's result at row `r`, column `q`: the result row of row `r` of the batch, at `q`. -/
theorem ref_apply (r : Fin 16384) (q : Fin 2048) :
    val_main_v62 (F := Ideal) x0 x1 x2 (ix2 r q) = outRow (wOf x1) (bOf x2) (batchRow x0 r) q := by
  rw [v62_eq]
  refine (concat4_cols_apply 16384 (stages x0 x1 x2) _ r q).trans ?_
  exact congrFun (row_stages x0 x1 x2 r ⟨q.val / 512, by have := q.isLt; omega⟩) ⟨q.val % 512, Nat.mod_lt _ (by decide)⟩

/-- **The reference's result is `G` of its arguments.** -/
theorem ref_is_G : val_main_v62 (F := Ideal) x0 x1 x2 = G x0 x1 x2 :=
  funext fun i => (congrArg (val_main_v62 (F := Ideal) x0 x1 x2) (eq_ix2 i)).trans (ref_apply x0 x1 x2 (i 0) (i 1))

end Stages

end Cert.ReferenceIdeal.Rows

end
-- ==== Proof.Blocks.lean ====
/-
  From the tiles to the whole array.

  Grid point `t` stages rows `1024 t … 1024 t + 1023` of the batch, the whole stack of weights (which the host has
  changed to another float format first: the identity on extended reals) and the whole stack of biases, and writes back
  rows `1024 t … 1024 t + 1023` of the output, all 2048 columns. What it writes is, row by row, the result row of the
  staged row (KernelRow), that is `RowNet.G` of the arguments on those rows. The sixteen row blocks tile the output, so
  after the run the output array is `RowNet.G` of the arguments.
-/
import proofs.«105273_j60430189854994_1_alg».proof.Proof.Gen.KernelIdeal.Value
import proofs.«105273_j60430189854994_1_alg».proof.Proof.KernelRow
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Value Cert.KernelIdeal.Rows Cert.RowNet
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The batch, the weights and the biases as launched, on core `c`. -/
abbrev argX (c : Dev nD) : S16384x512.Idx → EReal := m ((c : Thread nD τ).loc main_arg0)
abbrev argW (c : Dev nD) : S4x512x512.Idx → EReal := m ((c : Thread nD τ).loc main_arg1)
abbrev argB (c : Dev nD) : S4x512.Idx → EReal := m ((c : Thread nD τ).loc main_arg2)

/-- What the output array is to hold: `G` of the arguments. -/
abbrev Gm (c : Dev nD) : Buf (Elt Ideal) ((c : Thread nD τ).loc main_v1) := G (argX m c) (argW m c) (argB m c)

/-- The index maps over the sixteen points: the batch and the output move one row block per point, the weights and the
    biases stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights as the region finds them: the host's change of format of the launched weights. -/
theorem V_weights (c : Dev nD) :
    (V m c main_v0 : S4x512x512.Idx → EReal) = (truncf (F := Ideal) .bf16 (argW m c) bitsLt_bf16_f32 : FVec Ideal S4x512x512 .bf16) := by
  dsimp only [Gen.V, Gen.hostOps0]; after_results

/-- The staged batch block at point `t`: rows `1024 t …` of the batch. -/
theorem iblk0_apply (c : Dev nD) (t : Fin cfg0.N) (p : Fin 1024) (d : Fin 512) (k : S16384x512.Idx)
    (hk0 : (k 0).val = t.val * 1024 + p.val) (hk1 : (k 1).val = d.val) :
    (iblk m c 0 t : Vec Ideal S1024x512 .f32) (ix2 p d) = argX m c k := by
  obtain ⟨e00, e01, -⟩ := idx_facts t
  unfold iblk
  rw [View.read_apply]
  show V m c main_arg0 _ = _
  rw [V_main_arg0]
  refine congrArg (argX m c) (funext fun a => Fin.ext ?_)
  match a with
  | ⟨0, _⟩ => show win0_0.index t (0 : Fin 2) * 1024 + 1 * p.val = (k 0).val; rw [e00, hk0]; omega
  | ⟨1, _⟩ => show win0_0.index t (1 : Fin 2) * 512 + 1 * d.val = (k 1).val; rw [e01, hk1]; omega

/-- The staged weights at every point: the whole stack, entry by entry the launched weights. -/
theorem iblk1_apply (c : Dev nD) (t : Fin cfg0.N) (l : Fin 4) (e d : Fin 512) :
    (iblk m c 1 t : Vec Ideal S4x512x512 .bf16) (ix3 l e d) = argW m c (ix3 l e d) := by
  obtain ⟨-, -, e10, e11, e12, -⟩ := idx_facts t
  unfold iblk
  rw [View.read_apply]
  show V m c main_v0 _ = _
  rw [V_weights]
  show argW m c _ = _
  refine congrArg (argW m c) (funext fun a => Fin.ext ?_)
  match a with
  | ⟨0, _⟩ => show win0_1.index t (0 : Fin 3) * 4 + 1 * l.val = l.val; rw [e10]; omega
  | ⟨1, _⟩ => show win0_1.index t (1 : Fin 3) * 512 + 1 * e.val = e.val; rw [e11]; omega
  | ⟨2, _⟩ => show win0_1.index t (2 : Fin 3) * 512 + 1 * d.val = d.val; rw [e12]; omega

/-- The staged biases at every point: the whole stack. -/
theorem iblk2_apply (c : Dev nD) (t : Fin cfg0.N) (l : Fin 4) (e : Fin 512) :
    (iblk m c 2 t : Vec Ideal S4x512 .f32) (ix2 l e) = argB m c (ix2 l e) := by
  obtain ⟨-, -, -, -, -, e20, e21, -⟩ := idx_facts t
  unfold iblk
  rw [View.read_apply]
  show V m c main_arg2 _ = _
  rw [V_main_arg2]
  refine congrArg (argB m c) (funext fun a => Fin.ext ?_)
  match a with
  | ⟨0, _⟩ => show win0_2.index t (0 : Fin 2) * 4 + 1 * l.val = l.val; rw [e20]; omega
  | ⟨1, _⟩ => show win0_2.index t (1 : Fin 2) * 512 + 1 * e.val = e.val; rw [e21]; omega

/-- What the body stores at any index of its output tile: the result row of the staged row (KernelRow's `out_row`, at
    an index given by its coordinates). -/
theorem out_apply (X0 : Vec Ideal S1024x512 .f32) (X1 : Vec Ideal S4x512x512 .bf16) (X2 : Vec Ideal S4x512 .f32) (j : S1024x2048.Idx) :
    out0_3 X0 X1 X2 j = outRow (wOf X1) (bOf X2) (rowK X0 (j 0)) (j 1) :=
  (congrArg (out0_3 X0 X1 X2) (eq_ix2 j)).trans (out_row X0 X1 X2 (j 0) (j 1))

/-- WHAT POINT `t` WRITES BACK is block `t` of `G` of the arguments. -/
theorem flushed_eq (c : Dev nD) (t : Fin cfg0.N) :
    (dats m 0 c).flushed 3 t = ((cfg0.win 3).blk t).view.read (Elt Ideal) (Gm m c) := by
  rw [flushed3]
  obtain ⟨-, -, -, -, -, -, -, e30, e31⟩ := idx_facts t
  funext j
  show out0_3 (iblk m c 0 t) (iblk m c 1 t) (iblk m c 2 t) j = G (argX m c) (argW m c) (argB m c) (((cfg0.win 3).blk t).view.emb j)
  refine (out_apply (iblk m c 0 t) (iblk m c 1 t) (iblk m c 2 t) j).trans ?_
  have hW : wOf (iblk m c 1 t : Vec Ideal S4x512x512 .bf16) = wOf (argW m c) := funext fun l => funext fun e => funext fun d => iblk1_apply m c t l e d
  have hB : bOf (iblk m c 2 t : Vec Ideal S4x512 .f32) = bOf (argB m c) := funext fun l => funext fun e => iblk2_apply m c t l e
  have hj0 : (j 0).val < 1024 := (j 0).isLt
  have hj1 : (j 1).val < 2048 := (j 1).isLt
  have hN : t.val < 16 := by have h := t.isLt; have e : cfg0.N = 16 := N_0; omega
  have hi : ((cfg0.win 3).blk t).view.emb j = ix2 (⟨t.val * 1024 + (j 0).val, by omega⟩ : Fin 16384) (⟨(j 1).val, hj1⟩ : Fin 2048) :=
    funext fun a => Fin.ext (by
      match a with
      | ⟨0, _⟩ => show win0_3.index t (0 : Fin 2) * 1024 + 1 * (j 0).val = t.val * 1024 + (j 0).val; rw [e30]; omega
      | ⟨1, _⟩ => show win0_3.index t (1 : Fin 2) * 2048 + 1 * (j 1).val = (j 1).val; rw [e31]; omega)
  rw [hi, G_apply, hW, hB]
  have hX : rowK (iblk m c 0 t : Vec Ideal S1024x512 .f32) (⟨(j 0).val, hj0⟩ : Fin 1024) = batchRow (argX m c) (⟨t.val * 1024 + (j 0).val, by omega⟩ : Fin 16384) :=
    funext fun d => iblk0_apply m c t ⟨(j 0).val, hj0⟩ d _ rfl rfl
  exact congrArg (fun x => outRow (wOf (argW m c)) (bOf (argB m c)) x (⟨(j 1).val, hj1⟩ : Fin 2048)) hX

/-- An index of the output is in point `t`'s block iff its row is among that block's 1024 rows. -/
theorem mem_blk (t : Fin cfg0.N) (i : S16384x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v1).slice (win0_3.rect t)).set ↔ _
  rw [View.set_slice_whole, Rect.mem_set_unit]
  exact Iff.rfl

/-- Every index of the output is in the block of the point its row falls to. -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  let t : Fin cfg0.N := ⟨(i 0).val / 1024, by rw [show cfg0.N = 16 from N_0]; omega⟩
  obtain ⟨-, -, -, -, -, -, -, e30, e31⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; rw [e30, ht]; omega
  | ⟨1, _⟩ => show win0_3.index t (1 : Fin 2) * 2048 ≤ (i 1).val ∧ (i 1).val < win0_3.index t (1 : Fin 2) * 2048 + 2048; rw [e31]; omega

/-- THE OUTPUT ARRAY after the run is `G` of the arguments. -/
theorem final (c : Dev nD) : (dats m 0 c).arrAt 3 cfg0.N = Gm m c :=
  (dats m 0 c).arrAt_eq_of_cover 3 (Gm m c) (fun t _ => flushed_eq m c t) cover

/-- The kernel's run, read: the output at `G` of the arguments, the arguments unchanged. -/
theorem run : θ_run defs (onTc (τ := τ) (main (F := Ideal))) ⟨m, fun _ => 0, ρ⟩ fun r => ∀ c : Dev nD,
      r.2.mem ((c : Thread nD τ).loc main_v1) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Blocks

end
-- ==== Proof.lean ====
/-
  A four-layer network with dot-product corrections between the layers, computed tile by tile on the device against the
  same network computed on the whole batch by the host.

  For one sample `x` (a row of 512 numbers), with output-major weight matrices `W₀ … W₃` and bias rows `b₀ … b₃`:

    y₀ = x W₀ᵀ + b₀
    y₁ = (y₀ + ⟨y₀, x⟩) W₁ᵀ + b₁
    y₂ = (u + ⟨u, y₀⟩) W₂ᵀ + b₂            where u = y₁ + ⟨y₁, x⟩
    y₃ = (w + ⟨w, y₁⟩) W₃ᵀ + b₃            where w = v + ⟨v, y₀⟩, v = y₂ + ⟨y₂, x⟩

  (`⟨a, c⟩` the dot product, added to every entry), and the result row is `y₀ y₁ y₂ y₃` end to end (Proof/RowNet.lean).

  The device program cuts the batch of 16384 rows into sixteen tiles of 1024, changes the weights' float format first
  and each activation's before its matrix product (both the identity on extended reals), and computes exactly these
  sums and products on every row of a tile (Proof/KernelRow.lean); its sixteen output blocks tile the output array
  (Proof/Blocks.lean). The host program computes the same on all rows at once (Proof/RefRow.lean). Both results are the
  one function `RowNet.G` of the arguments; no law of the extended reals beyond the order-independence of a finite sum
  is needed, so the precondition is never opened. The three frames are the generated ones; the idealization rewrote
  nothing, so there is nothing to preserve.
-/
import proofs.«105273_j60430189854994_1_alg».proof.Defs
import proofs.«105273_j60430189854994_1_alg».proof.Proof.Gen.Kernel
import proofs.«105273_j60430189854994_1_alg».proof.Proof.Gen.Kernel.Skeleton
import proofs.«105273_j60430189854994_1_alg».proof.Proof.Gen.Kernel.Launch
import proofs.«105273_j60430189854994_1_alg».proof.Proof.Gen.Kernel.Points
import proofs.«105273_j60430189854994_1_alg».proof.Proof.Gen.Kernel.Frame
import proofs.«105273_j60430189854994_1_alg».proof.Proof.Gen.KernelIdeal
import proofs.«105273_j60430189854994_1_alg».proof.Proof.Gen.KernelIdeal.Skeleton
import proofs.«105273_j60430189854994_1_alg».proof.Proof.Gen.KernelIdeal.Launch
import proofs.«105273_j60430189854994_1_alg».proof.Proof.Gen.KernelIdeal.Points
import proofs.«105273_j60430189854994_1_alg».proof.Proof.Gen.KernelIdeal.Frame
import proofs.«105273_j60430189854994_1_alg».proof.Proof.Gen.ReferenceIdeal
import proofs.«105273_j60430189854994_1_alg».proof.Proof.Gen.Pre_finite_inputs
import proofs.«105273_j60430189854994_1_alg».proof.Proof.Gen.KernelIdeal.Value
import proofs.«105273_j60430189854994_1_alg».proof.Proof.Gen.ReferenceIdeal.Run
import proofs.«105273_j60430189854994_1_alg».proof.Proof.Gen.ReferenceIdeal.Read
import proofs.«105273_j60430189854994_1_alg».proof.Proof.RowNet
import proofs.«105273_j60430189854994_1_alg».proof.Proof.KernelRow
import proofs.«105273_j60430189854994_1_alg».proof.Proof.RefRow
import proofs.«105273_j60430189854994_1_alg».proof.Proof.Blocks
import Idealize.ShloMosaic.Adequacy
import Idealize.ShloMosaic.Init

noncomputable section

namespace Cert.Proof

open Idealize.ShloMosaic Idealize.SL.Sem

/-- The device program runs and keeps its arguments (word level). -/
theorem frame_k : Cert.frame_Kernel := fun m ρ _ => Cert.Kernel.Gen.frame m ρ

/-- The same program read over the extended reals runs and keeps its arguments. -/
theorem frame_ki : Cert.frame_KernelIdeal := fun m ρ _ => Cert.KernelIdeal.Gen.frame m ρ

/-- The host program runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the batch, the weights and the biases, the device program's output array and the host
    program's result are both `RowNet.G` of those arguments. -/
theorem algebraic : Cert.algebraic_KernelIdeal_ReferenceIdeal := by
  intro m ρ m' ρ' _ hagree
  refine ⟨fun c => Cert.KernelIdeal.Blocks.Gm m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.Rows.ref_is_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
